-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x400x1x1x64x64 : Shape := ⟨6, ![32, 400, 1, 1, 64, 64]⟩
abbrev S_ : Shape := ⟨0, ![]⟩

class Facts : Prop where
  bcast_S_S32x400x1x1x64x64 : S_.BroadcastsInDim S32x400x1x1x64x64 (![] : Fin 0 → Fin S32x400x1x1x64x64.rank)
  reducesTo_S32x400x1x1x64x64_S_d0_1_2_3_4_5 : S32x400x1x1x64x64.ReducesTo [0, 1, 2, 3, 4, 5] S_
  h_S_ : 0 < S_.numel

variable [Facts]

def fn {F : FTy → Type} [FloatOps F] (main_arg0 : FVec F S32x400x1x1x64x64 .f32) : IVec S_ 1 :=
  let main_v0 : FVec F S32x400x1x1x64x64 .f32 := Host.absf main_arg0
  let main_cst : FVec F S_ .f32 := constant S_ .f32 0x7F800000#32
  let main_v1 : FVec F S32x400x1x1x64x64 .f32 := broadcastInDim S32x400x1x1x64x64 ![] bcast_S_S32x400x1x1x64x64 main_cst
  let main_v2 : IVec S32x400x1x1x64x64 1 := cmpf .olt main_v0 main_v1
  let main_c : IVec S_ 1 := constantI S_ 1 1#1
  let main_v3 : IVec S_ 1 := (fun x v => Host.reduce IntOp.andi x v reducesTo_S32x400x1x1x64x64_S_d0_1_2_3_4_5 h_S_) main_v2 main_c
  main_v3
-- ==== Kernel.lean ====
abbrev S32x400x1x1x64x64 : Shape := ⟨6, ![32, 400, 1, 1, 64, 64]⟩
abbrev S32x5x5x256x256 : Shape := ⟨5, ![32, 5, 5, 256, 256]⟩
abbrev S1x80x1x1x64x64 : Shape := ⟨6, ![1, 80, 1, 1, 64, 64]⟩
abbrev S1x1x5x256x256 : Shape := ⟨5, ![1, 1, 5, 256, 256]⟩
abbrev S80x64x64 : Shape := ⟨3, ![80, 64, 64]⟩
abbrev S5x4x4x64x64 : Shape := ⟨5, ![5, 4, 4, 64, 64]⟩
abbrev S5x64x4x64x4 : Shape := ⟨5, ![5, 64, 4, 64, 4]⟩
abbrev S5x256x64x4 : Shape := ⟨4, ![5, 256, 64, 4]⟩
abbrev S5x256x256 : Shape := ⟨3, ![5, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S32x400x1x1x64x64, .f32⟩
  | .hbm, ⟨1, _⟩ => ⟨S32x5x5x256x256, .f32⟩
  | .local _ .vmem, ⟨0, _⟩ => ⟨S1x80x1x1x64x64, .f32⟩
  | .local _ .vmem, ⟨1, _⟩ => ⟨S1x80x1x1x64x64, .f32⟩
  | .local _ .vmem, ⟨2, _⟩ => ⟨S1x1x5x256x256, .f32⟩
  | .local _ .vmem, ⟨3, _⟩ => ⟨S1x1x5x256x256, .f32⟩
  | _, _ => ⟨S32x400x1x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 5], ![false, false]⟩

def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x80x1x1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x80x1x1x64x64_S1x80x1x1x64x64_0_0_0_0_0_0 : ∀ a, (![0, 0, 0, 0, 0, 0] : Fin 6 → Nat) a + S1x80x1x1x64x64.size a ≤ S1x80x1x1x64x64.size a
  h_S1x80x1x1x64x64 : 0 < S1x80x1x1x64x64.numel
  shapeCasts_S1x80x1x1x64x64_S80x64x64 : S1x80x1x1x64x64.ShapeCasts S80x64x64
  shapeCasts_S80x64x64_S5x4x4x64x64 : S80x64x64.ShapeCasts S5x4x4x64x64
  transposes_S5x4x4x64x64_p0_3_1_4_2_S5x64x4x64x4 : S5x4x4x64x64.Transposes [0, 3, 1, 4, 2] S5x64x4x64x4
  shapeCasts_S5x64x4x64x4_S5x256x64x4 : S5x64x4x64x4.ShapeCasts S5x256x64x4
  shapeCasts_S5x256x64x4_S5x256x256 : S5x256x64x4.ShapeCasts S5x256x256
  inb_S1x1x5x256x256_S1x1x5x256x256_0_0_0_0_0 : ∀ a, (![0, 0, 0, 0, 0] : Fin 5 → Nat) a + S1x1x5x256x256.size a ≤ S1x1x5x256x256.size a
  h_S1x1x5x256x256 : 0 < S1x1x5x256x256.numel
  shapeCasts_S1x1x5x256x256_S5x256x256 : S1x1x5x256x256.ShapeCasts S5x256x256
  shapeCasts_S5x256x256_S1x1x5x256x256 : S5x256x256.ShapeCasts S1x1x5x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80x1x1x64x64.size a ≤ S32x400x1x1x64x64.size a
  hwx0_0 : ∀ i : grid0.Coords, EltTy.bits .f32 = 32 ∨ (Rect.block (s := S32x400x1x1x64x64) S1x80x1x1x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x5x256x256.size a ≤ S32x5x5x256x256.size a
  hwx0_1 : ∀ i : grid0.Coords, EltTy.bits .f32 = 32 ∨ (Rect.block (s := S32x5x5x256x256) S1x1x5x256x256.size (cc0_transform_1 i) (hinb0_1 i)).WholeWords (EltTy.packing .f32)

variable [Facts₀]

abbrev win0_0 : Pipeline.Window sig grid0 :=
  Pipeline.Window.ofSpec (Memref.whole main_arg0) S1x80x1x1x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x5x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x400x1x1x64x64 : Shape := ⟨6, ![32, 400, 1, 1, 64, 64]⟩
abbrev S32x400x64x64 : Shape := ⟨4, ![32, 400, 64, 64]⟩
abbrev S32x25x4x4x64x64 : Shape := ⟨6, ![32, 25, 4, 4, 64, 64]⟩
abbrev S32x25x64x4x64x4 : Shape := ⟨6, ![32, 25, 64, 4, 64, 4]⟩
abbrev S32x25x256x256 : Shape := ⟨4, ![32, 25, 256, 256]⟩
abbrev S32x5x5x256x256 : Shape := ⟨5, ![32, 5, 5, 256, 256]⟩

abbrev nBuf : Space → Nat
  | .hbm => 6
  | .vmem => 0
  | .smem => 0
  | _ => 0

abbrev bufTy : (tb : Table) → Fin (tcTables nBuf tb) → BufTy
  | .hbm, ⟨0, _⟩ => ⟨S32x400x1x1x64x64, .f32⟩
  | .hbm, ⟨1, _⟩ => ⟨S32x400x64x64, .f32⟩
  | .hbm, ⟨2, _⟩ => ⟨S32x25x4x4x64x64, .f32⟩
  | .hbm, ⟨3, _⟩ => ⟨S32x25x64x4x64x4, .f32⟩
  | .hbm, ⟨4, _⟩ => ⟨S32x25x256x256, .f32⟩
  | .hbm, ⟨5, _⟩ => ⟨S32x5x5x256x256, .f32⟩
  | _, _ => ⟨S32x400x1x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]

class Facts₀ : Prop where
  shapeCasts_S32x400x1x1x64x64_S32x400x64x64 : S32x400x1x1x64x64.ShapeCasts S32x400x64x64
  shapeCasts_S32x400x64x64_S32x25x4x4x64x64 : S32x400x64x64.ShapeCasts S32x25x4x4x64x64
  transposes_S32x25x4x4x64x64_S32x25x64x4x64x4_0_1_4_2_5_3 : S32x25x4x4x64x64.Transposes [0, 1, 4, 2, 5, 3] S32x25x64x4x64x4
  shapeCasts_S32x25x64x4x64x4_S32x25x256x256 : S32x25x64x4x64x4.ShapeCasts S32x25x256x256
  shapeCasts_S32x25x256x256_S32x5x5x256x256 : S32x25x256x256.ShapeCasts S32x5x5x256x256

variable [Facts₀]

class Facts : Prop extends Facts₀ where

variable [Facts]
-- ==== Proof.Shuffle.lean ====
/-
  Depth-to-space with factor 4, as index arithmetic.

  The result has one entry for every batch `b`, channel group `g`, channel `c` of the group, row `H` and column `W` of the
  upsampled 256 x 256 picture. That entry is the input's entry at batch `b`, input channel
  `80 g + 16 c + 4 (H mod 4) + (W mod 4)`, row `H / 4`, column `W / 4`: each 4 x 4 tile of the picture gathers sixteen
  consecutive input channels at one pixel (`shuffled`).

  Two chains of reshapes around one transposition compute it. Every reshape keeps the row-major position of an entry, so a
  chain is read at an index by writing the position on both sides of each reshape as a sum of products and comparing:
    * `block_apply`: the chain applied to ONE [1,80,1,1,64,64] slab of eighty channels, giving a [1,1,5,256,256] slab;
    * `whole_apply`: the chain applied to the whole [32,400,1,1,64,64] array, giving the whole [32,5,5,256,256] array.
-/
import Idealize.ShloMosaic.Lib.Pipeline.Value
import Idealize.ShloMosaic.Lib.ValueIdx
import Idealize.ShloMosaic.Lib.ValueIdxRank6

namespace Cert.Shuffle

open Idealize.ShloMosaic Idealize.ShloMosaic.ValueIdx

/-! ## Shapes -/

abbrev SIn : Shape := ⟨6, ![32, 400, 1, 1, 64, 64]⟩
abbrev SOut : Shape := ⟨5, ![32, 5, 5, 256, 256]⟩
abbrev SInBlk : Shape := ⟨6, ![1, 80, 1, 1, 64, 64]⟩
abbrev SOutBlk : Shape := ⟨5, ![1, 1, 5, 256, 256]⟩
abbrev S80x64x64 : Shape := ⟨3, ![80, 64, 64]⟩
abbrev S5x4x4x64x64 : Shape := ⟨5, ![5, 4, 4, 64, 64]⟩
abbrev S5x64x4x64x4 : Shape := ⟨5, ![5, 64, 4, 64, 4]⟩
abbrev S5x256x64x4 : Shape := ⟨4, ![5, 256, 64, 4]⟩
abbrev S5x256x256 : Shape := ⟨3, ![5, 256, 256]⟩
abbrev S32x400x64x64 : Shape := ⟨4, ![32, 400, 64, 64]⟩
abbrev S32x25x4x4x64x64 : Shape := ⟨6, ![32, 25, 4, 4, 64, 64]⟩
abbrev S32x25x64x4x64x4 : Shape := ⟨6, ![32, 25, 64, 4, 64, 4]⟩
abbrev S32x25x256x256 : Shape := ⟨4, ![32, 25, 256, 256]⟩

variable {α : Type}

/-! ## The specification -/

/-- The input channel that lands at channel `c` of group `g`, in row `H` and column `W` of the upsampled picture. -/
abbrev srcChan (g c : Fin 5) (H W : Fin 256) : Fin 400 :=
  ⟨80 * g.val + 16 * c.val + 4 * (H.val % 4) + W.val % 4, by have := g.isLt; have := c.isLt; omega⟩

/-- The same channel counted inside its group's slab of eighty channels. -/
abbrev srcChanBlk (c : Fin 5) (H W : Fin 256) : Fin 80 :=
  ⟨16 * c.val + 4 * (H.val % 4) + W.val % 4, by have := c.isLt; omega⟩

/-- The input pixel row (column) under row (column) `H` of the upsampled picture. -/
abbrev srcPix (H : Fin 256) : Fin 64 := ⟨H.val / 4, by have := H.isLt; omega⟩

/-- Depth-to-space at explicit coordinates. -/
def shuffledAt (x : SIn.Idx → α) (b : Fin 32) (g c : Fin 5) (H W : Fin 256) : α :=
  x (ix6 b (srcChan g c H W) (0 : Fin 1) (0 : Fin 1) (srcPix H) (srcPix W))

/-- Depth-to-space: the whole result array as a function of the whole input array. -/
def shuffled (x : SIn.Idx → α) : SOut.Idx → α := fun o => shuffledAt x (o 0) (o 1) (o 2) (o 3) (o 4)

/-! ## One slab of eighty channels -/

/-- The slab chain at an index: entry (c, H, W) of the [1,1,5,256,256] slab is entry (16 c + 4 (H mod 4) + W mod 4, H / 4, W / 4)
    of the [1,80,1,1,64,64] slab. -/
theorem block_apply (v : SInBlk.Idx → α)
    (h1 : SInBlk.ShapeCasts S80x64x64) (h2 : S80x64x64.ShapeCasts S5x4x4x64x64)
    (h3 : S5x4x4x64x64.Transposes [0, 3, 1, 4, 2] S5x64x4x64x4) (h4 : S5x64x4x64x4.ShapeCasts S5x256x64x4)
    (h5 : S5x256x64x4.ShapeCasts S5x256x256) (h6 : S5x256x256.ShapeCasts SOutBlk)
    (u0 u1 : Fin 1) (c : Fin 5) (H W : Fin 256) :
    shapeCast SOutBlk (shapeCast S5x256x256 (shapeCast S5x256x64x4 (transpose S5x64x4x64x4 [0, 3, 1, 4, 2]
      (shapeCast S5x4x4x64x64 (shapeCast S80x64x64 v h1) h2) h3) h4) h5) h6 (ix5 u0 u1 c H W)
    = v (ix6 (0 : Fin 1) (srcChanBlk c H W) (0 : Fin 1) (0 : Fin 1) (srcPix H) (srcPix W)) := by
  have hu0 := u0.isLt
  have hu1 := u1.isLt
  have hc := c.isLt
  have hH := H.isLt
  have hW := W.isLt
  -- the picture's row and column split into the pixel and the position inside its 4 x 4 tile
  let i : Fin 4 := ⟨H.val % 4, by omega⟩
  let j : Fin 4 := ⟨W.val % 4, by omega⟩
  -- drop the two unit axes
  refine (shapeCast_apply _ h6 (ix5 u0 u1 c H W) (ix3 c H W) ?_).trans ?_
  · rw [Shape.rowMajor_val_three, Shape.rowMajor_val_five]
    show (c.val * 256 + H.val) * 256 + W.val = (((u0.val * 1 + u1.val) * 5 + c.val) * 256 + H.val) * 256 + W.val
    omega
  -- split the column
  refine (shapeCast_apply _ h5 (ix3 c H W) (ix4 c H (srcPix W) j) ?_).trans ?_
  · rw [Shape.rowMajor_val_four, Shape.rowMajor_val_three]
    show ((c.val * 256 + H.val) * 64 + W.val / 4) * 4 + W.val % 4 = (c.val * 256 + H.val) * 256 + W.val
    omega
  -- split the row
  refine (shapeCast_apply _ h4 (ix4 c H (srcPix W) j) (ix5 c (srcPix H) i (srcPix W) j) ?_).trans ?_
  · rw [Shape.rowMajor_val_five, Shape.rowMajor_val_four]
    show (((c.val * 64 + H.val / 4) * 4 + H.val % 4) * 64 + W.val / 4) * 4 + W.val % 4
      = ((c.val * 256 + H.val) * 64 + W.val / 4) * 4 + W.val % 4
    omega
  -- the transposition brings the two tile positions in front of the pixel
  refine (transpose_apply [0, 3, 1, 4, 2] _ h3 (ix5 c (srcPix H) i (srcPix W) j) (ix5 c i j (srcPix H) (srcPix W))
    (fun b => match b with
      | ⟨0, _⟩ => rfl
      | ⟨1, _⟩ => rfl
      | ⟨2, _⟩ => rfl
      | ⟨3, _⟩ => rfl
      | ⟨4, _⟩ => rfl)).trans ?_
  -- channel, tile row and tile column merge into the slab's channel
  refine (shapeCast_apply _ h2 (ix5 c i j (srcPix H) (srcPix W)) (ix3 (srcChanBlk c H W) (srcPix H) (srcPix W)) ?_).trans ?_
  · rw [Shape.rowMajor_val_three, Shape.rowMajor_val_five]
    show ((16 * c.val + 4 * (H.val % 4) + W.val % 4) * 64 + H.val / 4) * 64 + W.val / 4
      = (((c.val * 4 + H.val % 4) * 4 + W.val % 4) * 64 + H.val / 4) * 64 + W.val / 4
    omega
  -- put the unit axes back
  refine shapeCast_apply _ h1 (ix3 (srcChanBlk c H W) (srcPix H) (srcPix W))
    (ix6 (0 : Fin 1) (srcChanBlk c H W) (0 : Fin 1) (0 : Fin 1) (srcPix H) (srcPix W)) ?_
  rw [Shape.rowMajor_val_six, Shape.rowMajor_val_three]
  show ((((0 * 80 + (16 * c.val + 4 * (H.val % 4) + W.val % 4)) * 1 + 0) * 1 + 0) * 64 + H.val / 4) * 64 + W.val / 4
    = ((16 * c.val + 4 * (H.val % 4) + W.val % 4) * 64 + H.val / 4) * 64 + W.val / 4
  omega

/-! ## The whole array -/

/-- The whole-array chain at an index is the specification. -/
theorem whole_apply (x : SIn.Idx → α)
    (h1 : SIn.ShapeCasts S32x400x64x64) (h2 : S32x400x64x64.ShapeCasts S32x25x4x4x64x64)
    (h3 : S32x25x4x4x64x64.Transposes [0, 1, 4, 2, 5, 3] S32x25x64x4x64x4)
    (h4 : S32x25x64x4x64x4.ShapeCasts S32x25x256x256) (h5 : S32x25x256x256.ShapeCasts SOut)
    (b : Fin 32) (g c : Fin 5) (H W : Fin 256) :
    shapeCast SOut (shapeCast S32x25x256x256 (transpose S32x25x64x4x64x4 [0, 1, 4, 2, 5, 3]
      (shapeCast S32x25x4x4x64x64 (shapeCast S32x400x64x64 x h1) h2) h3) h4) h5 (ix5 b g c H W)
    = shuffledAt x b g c H W := by
  have hb := b.isLt
  have hg := g.isLt
  have hc := c.isLt
  have hH := H.isLt
  have hW := W.isLt
  let C : Fin 25 := ⟨5 * g.val + c.val, by omega⟩
  let i : Fin 4 := ⟨H.val % 4, by omega⟩
  let j : Fin 4 := ⟨W.val % 4, by omega⟩
  -- group and channel merge into one of twenty-five channels
  refine (shapeCast_apply _ h5 (ix5 b g c H W) (ix4 b C H W) ?_).trans ?_
  · rw [Shape.rowMajor_val_four, Shape.rowMajor_val_five]
    show ((b.val * 25 + (5 * g.val + c.val)) * 256 + H.val) * 256 + W.val
      = (((b.val * 5 + g.val) * 5 + c.val) * 256 + H.val) * 256 + W.val
    omega
  -- split the row and the column
  refine (shapeCast_apply _ h4 (ix4 b C H W) (ix6 b C (srcPix H) i (srcPix W) j) ?_).trans ?_
  · rw [Shape.rowMajor_val_six, Shape.rowMajor_val_four]
    show ((((b.val * 25 + (5 * g.val + c.val)) * 64 + H.val / 4) * 4 + H.val % 4) * 64 + W.val / 4) * 4 + W.val % 4
      = ((b.val * 25 + (5 * g.val + c.val)) * 256 + H.val) * 256 + W.val
    omega
  -- the transposition brings the two tile positions in front of the pixel
  refine (transpose_apply [0, 1, 4, 2, 5, 3] _ h3 (ix6 b C (srcPix H) i (srcPix W) j) (ix6 b C i j (srcPix H) (srcPix W))
    (fun a => match a with
      | ⟨0, _⟩ => rfl
      | ⟨1, _⟩ => rfl
      | ⟨2, _⟩ => rfl
      | ⟨3, _⟩ => rfl
      | ⟨4, _⟩ => rfl
      | ⟨5, _⟩ => rfl)).trans ?_
  -- channel, tile row and tile column merge into the input channel
  refine (shapeCast_apply _ h2 (ix6 b C i j (srcPix H) (srcPix W)) (ix4 b (srcChan g c H W) (srcPix H) (srcPix W)) ?_).trans ?_
  · rw [Shape.rowMajor_val_four, Shape.rowMajor_val_six]
    show ((b.val * 400 + (80 * g.val + 16 * c.val + 4 * (H.val % 4) + W.val % 4)) * 64 + H.val / 4) * 64 + W.val / 4
      = ((((b.val * 25 + (5 * g.val + c.val)) * 4 + H.val % 4) * 4 + W.val % 4) * 64 + H.val / 4) * 64 + W.val / 4
    omega
  -- put the unit axes back
  refine shapeCast_apply _ h1 (ix4 b (srcChan g c H W) (srcPix H) (srcPix W))
    (ix6 b (srcChan g c H W) (0 : Fin 1) (0 : Fin 1) (srcPix H) (srcPix W)) ?_
  rw [Shape.rowMajor_val_six, Shape.rowMajor_val_four]
  show ((((b.val * 400 + (80 * g.val + 16 * c.val + 4 * (H.val % 4) + W.val % 4)) * 1 + 0) * 1 + 0) * 64 + H.val / 4) * 64 + W.val / 4
    = ((b.val * 400 + (80 * g.val + 16 * c.val + 4 * (H.val % 4) + W.val % 4)) * 64 + H.val / 4) * 64 + W.val / 4
  omega

end Cert.Shuffle
-- ==== Proof.KernelValue.lean ====
/-
  What the kernel's result array holds after the run, at any float instance: depth-to-space of the argument array.

  The grid has one point per batch `b` and channel group `g`. At that point the input window holds the slab of the eighty
  channels `80 g … 80 g + 79` of batch `b`, and the body stores, as slab (b, g) of the result, that slab taken through
  the reshape / transpose chain. Read at an entry (c, H, W) the chain picks channel `16 c + 4 (H mod 4) + W mod 4` of the
  slab at pixel (H / 4, W / 4) (`Cert.Shuffle.block_apply`), which is channel `80 g + 16 c + 4 (H mod 4) + W mod 4` of
  the whole argument: slab (b, g) of `Cert.Shuffle.shuffled`. The 32 x 5 slabs tile the result array, so the array ends
  at `shuffled` of the argument.
-/
import proofs.«125067_j90563680403822_1_alg».proof.Proof.Gen.KernelIdeal.Value
import proofs.«125067_j90563680403822_1_alg».proof.Proof.Shuffle
import Idealize.ShloMosaic.Lib.Pipeline.Value
import Idealize.ShloMosaic.Lib.ValueIdx
import Idealize.ShloMosaic.Lib.ValueIdxRank6

noncomputable section

open Idealize.ShloMosaic Idealize.ShloMosaic.TcCoe Idealize.SL.Sem Idealize.ShloMosaic.ValueIdx
open Idealize.ShloMosaic.Pipeline (Dat)

namespace Cert.KernelIdeal.Shuffled

open Cert.KernelIdeal Cert.KernelIdeal.Gen Cert.KernelIdeal.Value Cert.Shuffle

variable {F : FTy → Type} [FloatOps F]
variable (m : (ℓ : Loc nD τ sig) → Buf (Elt F) ℓ) (ρ : Dev nD → PrngReg)

theorem hz5 : (![0, 0, 0, 0, 0] : Fin 5 → Nat) = fun _ => 0 := funext fun a => by fin_cases a <;> rfl
theorem hz6 : (![0, 0, 0, 0, 0, 0] : Fin 6 → Nat) = fun _ => 0 := funext fun a => by fin_cases a <;> rfl

/-- The stored slab at an entry: one entry of the loaded slab. -/
theorem pay_apply (x0 : Vec F S1x80x1x1x64x64 .f32) (j : S1x1x5x256x256.Idx) :
    k0_pay1 x0 j
      = x0 (ix6 (0 : Fin 1) (srcChanBlk (j 2) (j 3) (j 4)) (0 : Fin 1) (0 : Fin 1) (srcPix (j 3)) (srcPix (j 4))) := by
  obtain ⟨u0, u1, c, H, W, rfl⟩ : ∃ (u0 u1 : Fin 1) (c : Fin 5) (H W : Fin 256), j = ix5 u0 u1 c H W :=
    ⟨j 0, j 1, j 2, j 3, j 4, eq_ix5 j⟩
  unfold k0_pay1
  exact block_apply x0 _ _ _ _ _ _ u0 u1 c H W

/-- Where the two windows' blocks sit at each grid point, decided over the 160 points: the input's slab index is the
    output's (batch, group), and every other block index is zero. -/
theorem idx_facts : ∀ t : Fin cfg0.N,
    win0_0.index t (0 : Fin 6) = win0_1.index t (0 : Fin 5)
    ∧ win0_0.index t (1 : Fin 6) = win0_1.index t (1 : Fin 5)
    ∧ win0_0.index t (2 : Fin 6) = 0 ∧ win0_0.index t (3 : Fin 6) = 0
    ∧ win0_0.index t (4 : Fin 6) = 0 ∧ win0_0.index t (5 : Fin 6) = 0
    ∧ win0_1.index t (0 : Fin 5) < 32 ∧ win0_1.index t (1 : Fin 5) < 5
    ∧ win0_1.index t (2 : Fin 5) = 0 ∧ win0_1.index t (3 : Fin 5) = 0 ∧ win0_1.index t (4 : Fin 5) = 0 :=
  (by decide +kernel : ∀ t : Fin grid0.N, _)

/-- Every (batch, group) is some grid point's. -/
theorem idx_onto : ∀ (b : Fin 32) (g : Fin 5), ∃ t : Fin cfg0.N, win0_1.index t = ![b.val, g.val, 0, 0, 0] :=
  (by decide +kernel : ∀ (b : Fin 32) (g : Fin 5), ∃ t : Fin grid0.N, win0_1.index t = ![b.val, g.val, 0, 0, 0])

/-- What point `t` writes back is slab `t` of depth-to-space of the argument array. -/
theorem flushed_eq (c : Dev nD) (t : Fin cfg0.N) :
    (dats m 0 c).flushed 1 t
      = ((cfg0.win 1).blk t).view.read (Elt F) (shuffled (V m c main_arg0 : S32x400x1x1x64x64.Idx → Elt F .f32)) := by
  rw [flushed1]
  unfold out0_1
  rw [View.canon_unit_zero hz5]
  simp only [View.ld_unit_zero (S := S1x80x1x1x64x64) hz6]
  obtain ⟨e0, e1, e2, e3, e4, e5, l0, l1, z2, z3, z4⟩ := idx_facts t
  funext j
  show k0_pay1 (iblk m c 0 t) j = shuffled (V m c main_arg0 : S32x400x1x1x64x64.Idx → Elt F .f32) (((cfg0.win 1).blk t).view.emb j)
  refine (pay_apply (F := F) (iblk m c 0 t) j).trans ?_
  show V m c main_arg0 (((cfg0.win 0).blk t).view.emb
        (ix6 (0 : Fin 1) (srcChanBlk (j 2) (j 3) (j 4)) (0 : Fin 1) (0 : Fin 1) (srcPix (j 3)) (srcPix (j 4)))) = V m c main_arg0 _
  refine congrArg (V m c main_arg0) (funext fun a => Fin.ext ?_)
  have hj0 : (j 0).val < 1 := (j 0).isLt
  have hj1 : (j 1).val < 1 := (j 1).isLt
  have hj2 : (j 2).val < 5 := (j 2).isLt
  have hj3 : (j 3).val < 256 := (j 3).isLt
  have hj4 : (j 4).val < 256 := (j 4).isLt
  match a with
  | ⟨0, _⟩ =>
    show win0_0.index t (0 : Fin 6) * 1 + 1 * 0 = win0_1.index t (0 : Fin 5) * 1 + 1 * (j 0).val
    omega
  | ⟨1, _⟩ =>
    show win0_0.index t (1 : Fin 6) * 80 + 1 * (16 * (j 2).val + 4 * ((j 3).val % 4) + (j 4).val % 4)
      = 80 * (win0_1.index t (1 : Fin 5) * 1 + 1 * (j 1).val) + 16 * (win0_1.index t (2 : Fin 5) * 5 + 1 * (j 2).val)
        + 4 * ((win0_1.index t (3 : Fin 5) * 256 + 1 * (j 3).val) % 4) + (win0_1.index t (4 : Fin 5) * 256 + 1 * (j 4).val) % 4
    omega
  | ⟨2, _⟩ =>
    show win0_0.index t (2 : Fin 6) * 1 + 1 * 0 = 0
    omega
  | ⟨3, _⟩ =>
    show win0_0.index t (3 : Fin 6) * 1 + 1 * 0 = 0
    omega
  | ⟨4, _⟩ =>
    show win0_0.index t (4 : Fin 6) * 64 + 1 * ((j 3).val / 4) = (win0_1.index t (3 : Fin 5) * 256 + 1 * (j 3).val) / 4
    omega
  | ⟨5, _⟩ =>
    show win0_0.index t (5 : Fin 6) * 64 + 1 * ((j 4).val / 4) = (win0_1.index t (4 : Fin 5) * 256 + 1 * (j 4).val) / 4
    omega

/-- An index of the result array is in point `t`'s slab iff each coordinate is in the slab's range on its axis. -/
theorem mem_blk (t : Fin cfg0.N) (i : S32x5x5x256x256.Idx) :
    i ∈ ((cfg0.win 1).blk t).view.set ↔ ∀ a : Fin 5, win0_1.index t a * S1x1x5x256x256.size a ≤ (i a).val
      ∧ (i a).val < win0_1.index t a * S1x1x5x256x256.size a + S1x1x5x256x256.size a := by
  show i ∈ ((View.whole main_v0).slice (win0_1.rect t)).set ↔ _
  rw [View.set_slice_whole, Rect.mem_set_unit]
  exact Iff.rfl

/-- The slabs tile the result array: entry (b, g, c, H, W) is in the slab of the point whose block index is (b, g). -/
theorem cover (i : S32x5x5x256x256.Idx) :
    ∃ t : Fin cfg0.N, (cfg0.win 1).flush t = true ∧ i ∈ ((cfg0.win 1).blk t).view.set := by
  have hi0 : (i 0).val < 32 := (i 0).isLt
  have hi1 : (i 1).val < 5 := (i 1).isLt
  have hi2 : (i 2).val < 5 := (i 2).isLt
  have hi3 : (i 3).val < 256 := (i 3).isLt
  have hi4 : (i 4).val < 256 := (i 4).isLt
  obtain ⟨t, ht⟩ := idx_onto ⟨(i 0).val, hi0⟩ ⟨(i 1).val, hi1⟩
  have q0 : win0_1.index t (0 : Fin 5) = (i 0).val := congrFun ht 0
  have q1 : win0_1.index t (1 : Fin 5) = (i 1).val := congrFun ht 1
  have q2 : win0_1.index t (2 : Fin 5) = 0 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 5 ≤ (i 2).val ∧ (i 2).val < win0_1.index t (2 : Fin 5) * 5 + 5; omega
  | ⟨3, _⟩ => show win0_1.index t (3 : Fin 5) * 256 ≤ (i 3).val ∧ (i 3).val < win0_1.index t (3 : Fin 5) * 256 + 256; omega
  | ⟨4, _⟩ => show win0_1.index t (4 : Fin 5) * 256 ≤ (i 4).val ∧ (i 4).val < win0_1.index t (4 : Fin 5) * 256 + 256; omega

/-- The result array after the run is depth-to-space of the argument array. -/
theorem final (c : Dev nD) :
    (dats m 0 c).arrAt 1 cfg0.N = shuffled (m ((c : Thread nD τ).loc main_arg0) : S32x400x1x1x64x64.Idx → Elt F .f32) :=
  (dats m 0 c).arrAt_eq_of_cover 1 (shuffled (V m c main_arg0 : S32x400x1x1x64x64.Idx → Elt F .f32))
    (fun t _ => flushed_eq m c t) cover

/-- The run, read: the result array at depth-to-space of the argument, the argument unchanged. -/
theorem run : θ_run defs (onTc (τ := τ) (main (F := F))) ⟨m, fun _ => 0, ρ⟩ fun r => ∀ c : Dev nD,
      r.2.mem ((c : Thread nD τ).loc main_v0)
        = shuffled (m ((c : Thread nD τ).loc main_arg0) : S32x400x1x1x64x64.Idx → Elt F .f32)
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.Shuffled

end
-- ==== Proof.RefValue.lean ====
/-
  What the reference's result array holds, at any float instance: depth-to-space of the argument array.

  The reference drops the two unit axes, splits the 400 channels into 25 x 4 x 4, transposes the two tile positions
  behind the pixel's row and column, merges (row, tile row) and (column, tile column) into the 256 x 256 picture and
  splits the 25 channels into 5 x 5. Read at entry (b, g, c, H, W) this is the argument at channel
  `16 (5 g + c) + 4 (H mod 4) + W mod 4 = 80 g + 16 c + 4 (H mod 4) + W mod 4` and pixel (H / 4, W / 4)
  (`Cert.Shuffle.whole_apply`).
-/
import proofs.«125067_j90563680403822_1_alg».proof.Proof.Gen.ReferenceIdeal.Run
import proofs.«125067_j90563680403822_1_alg».proof.Proof.Shuffle
import Idealize.ShloMosaic.Lib.ValueIdx

noncomputable section

open Idealize.ShloMosaic Idealize.ShloMosaic.TcCoe Idealize.SL.Sem Idealize.ShloMosaic.ValueIdx

namespace Cert.ReferenceIdeal.Shuffled

open Cert.ReferenceIdeal Cert.ReferenceIdeal.Gen Cert.Shuffle

variable {F : FTy → Type} [FloatOps F]

/-- The reference's composed term is depth-to-space of its argument. -/
theorem result_eq (x : S32x400x1x1x64x64.Idx → Elt F .f32) :
    shapeCast S32x5x5x256x256 (shapeCast S32x25x256x256 (transpose S32x25x64x4x64x4 [0, 1, 4, 2, 5, 3]
      (shapeCast S32x25x4x4x64x64 (shapeCast S32x400x64x64 x shapeCasts_S32x400x1x1x64x64_S32x400x64x64)
        shapeCasts_S32x400x64x64_S32x25x4x4x64x64) transposes_S32x25x4x4x64x64_S32x25x64x4x64x4_0_1_4_2_5_3)
      shapeCasts_S32x25x64x4x64x4_S32x25x256x256) shapeCasts_S32x25x256x256_S32x5x5x256x256
    = shuffled x := by
  funext o
  obtain ⟨b, g, c, H, W, rfl⟩ : ∃ (b : Fin 32) (g c : Fin 5) (H W : Fin 256), o = ix5 b g c H W :=
    ⟨o 0, o 1, o 2, o 3, o 4, eq_ix5 o⟩
  exact whole_apply x _ _ _ _ _ b g c H W

/-- The reference's run, read: the result array at depth-to-space of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = shuffled (m ((c.tc : Thread nD τ).loc main_arg0) : S32x400x1x1x64x64.Idx → Elt F .f32)
      ∧ r.2.mem ((c.tc : Thread nD τ).loc main_arg0) = m ((c.tc : Thread nD τ).loc main_arg0) :=
  (θ_run defs _ _).mono (fun _ h c => ⟨(h c).1.trans (result_eq _), (h c).2⟩) (Cert.ReferenceIdeal.Value.run (F := F) m ρ)

end Cert.ReferenceIdeal.Shuffled

end
-- ==== Proof.lean ====
/-
  The proof of `Cert.Claim`: the kernel is a per-sample depth-to-space with factor 4 (a pure permutation of the entries,
  no arithmetic), and so is the reference.

  * Proof/Shuffle.lean — the permutation as index arithmetic: result entry (b, g, c, H, W) is the argument's entry at channel
    `80 g + 16 c + 4 (H mod 4) + W mod 4` and pixel (H / 4, W / 4); the kernel's reshape / transpose chain on one slab of
    eighty channels and the reference's chain on the whole array, each read at an index.
  * Proof/KernelValue.lean — the kernel's result array after the run is that permutation of the argument: each grid point
    writes one (batch, group) slab of it, and the slabs tile the array.
  * Proof/RefValue.lean — the reference's result array is the same permutation of its argument.

  Both results are one function of arguments that agree, so they are equal entry by entry; no entry is combined with
  another, and the precondition is not used. The three frames are the generated runs; the ideal pass rewrote nothing,
  so `preserves` has no conjunct.
-/
import proofs.«125067_j90563680403822_1_alg».proof.Defs
import proofs.«125067_j90563680403822_1_alg».proof.Proof.Gen.Kernel
import proofs.«125067_j90563680403822_1_alg».proof.Proof.Gen.Kernel.Frame
import proofs.«125067_j90563680403822_1_alg».proof.Proof.Gen.KernelIdeal
import proofs.«125067_j90563680403822_1_alg».proof.Proof.Gen.KernelIdeal.Frame
import proofs.«125067_j90563680403822_1_alg».proof.Proof.Gen.KernelIdeal.Value
import proofs.«125067_j90563680403822_1_alg».proof.Proof.Gen.ReferenceIdeal
import proofs.«125067_j90563680403822_1_alg».proof.Proof.Gen.ReferenceIdeal.Run
import proofs.«125067_j90563680403822_1_alg».proof.Proof.Gen.Pre_finite_inputs
import proofs.«125067_j90563680403822_1_alg».proof.Proof.Shuffle
import proofs.«125067_j90563680403822_1_alg».proof.Proof.KernelValue
import proofs.«125067_j90563680403822_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with their result array at depth-to-space of their argument array, and the arguments agree. -/
theorem algebraic : Cert.algebraic_KernelIdeal_ReferenceIdeal := by
  intro m ρ m' ρ' _ hagree
  refine ⟨_, Cert.KernelIdeal.Shuffled.run (F := Ideal) m ρ, ?_⟩
  refine (θ_run Cert.ReferenceIdeal.defs _ _).mono (fun _ h c => ⟨(h c).1.trans ?_, (h c).2⟩)
    (Cert.ReferenceIdeal.Shuffled.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
